-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S8x256x1 : Shape := ⟨3, ![8, 256, 1]⟩
abbrev S8x1 : Shape := ⟨2, ![8, 1]⟩
abbrev S64 : Shape := ⟨1, ![64]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S8x256x1 : S_.BroadcastsInDim S8x256x1 (![] : Fin 0 → Fin S8x256x1.rank)
  reducesTo_S8x256x1_S_d0_1_2 : S8x256x1.ReducesTo [0, 1, 2] S_
  bcast_S_S8x1 : S_.BroadcastsInDim S8x1 (![] : Fin 0 → Fin S8x1.rank)
  reducesTo_S8x1_S_d0_1 : S8x1.ReducesTo [0, 1] S_

variable [Facts]

def fn {F : FTy → Type} [FloatOps F] (main_arg0 : FVec F S262144x256 .f32) (main_arg1 : FVec F S8x256x1 .f32) (main_arg2 : FVec F S8x1 .f32) (main_arg3 : IVec S64 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S8x256x1 .f32 := Host.absf main_arg1
  let main_cst_0 : FVec F S_ .f32 := constant S_ .f32 0x7F800000#32
  let main_v5 : FVec F S8x256x1 .f32 := broadcastInDim S8x256x1 ![] bcast_S_S8x256x1 main_cst_0
  let main_v6 : IVec S8x256x1 1 := cmpf .olt main_v4 main_v5
  let main_c_1 : IVec S_ 1 := constantI S_ 1 1#1
  let main_v7 : IVec S_ 1 := (fun x v => Host.reduce IntOp.andi x v reducesTo_S8x256x1_S_d0_1_2 h_S_) main_v6 main_c_1
  let main_v8 : IVec S_ 1 := andi main_v3 main_v7
  let main_v9 : FVec F S8x1 .f32 := Host.absf main_arg2
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  main_v13
-- ==== Kernel.lean ====
abbrev S262144x256 : Shape := ⟨2, ![262144, 256]⟩
abbrev S8x256x1 : Shape := ⟨3, ![8, 256, 1]⟩
abbrev S8x1 : Shape := ⟨2, ![8, 1]⟩
abbrev S64 : Shape := ⟨1, ![64]⟩
abbrev S_ : Shape := ⟨0, ![]⟩
abbrev S64x1 : Shape := ⟨2, ![64, 1]⟩
abbrev S64x256x1 : Shape := ⟨3, ![64, 256, 1]⟩
abbrev S64x256 : Shape := ⟨2, ![64, 256]⟩
abbrev S262144x1 : Shape := ⟨2, ![262144, 1]⟩
abbrev S4096x256 : Shape := ⟨2, ![4096, 256]⟩
abbrev S4096x1 : Shape := ⟨2, ![4096, 1]⟩
abbrev S1x256 : Shape := ⟨2, ![1, 256]⟩
abbrev S256 : Shape := ⟨1, ![256]⟩
abbrev S1x1 : Shape := ⟨2, ![1, 1]⟩
abbrev S1 : Shape := ⟨1, ![1]⟩
abbrev S4096 : Shape := ⟨1, ![4096]⟩
abbrev S262144 : Shape := ⟨1, ![262144]⟩
abbrev S262143 : Shape := ⟨1, ![262143]⟩

abbrev nBuf : Space → Nat
  | .hbm => 26
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S8x256x1, .f32⟩
  | .hbm, ⟨2, _⟩ => ⟨S8x1, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x256x1, .f32⟩
  | .hbm, ⟨13, _⟩ => ⟨S64x256, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S64x1, .f32⟩
  | .hbm, ⟨23, _⟩ => ⟨S262144x1, .f32⟩
  | .hbm, ⟨24, _⟩ => ⟨S262144, .f32⟩
  | .hbm, ⟨25, _⟩ => ⟨S262143, .f32⟩
  | .local _ .vmem, ⟨0, _⟩ => ⟨S4096x256, .f32⟩
  | .local _ .vmem, ⟨1, _⟩ => ⟨S4096x256, .f32⟩
  | .local _ .vmem, ⟨2, _⟩ => ⟨S64x256, .f32⟩
  | .local _ .vmem, ⟨3, _⟩ => ⟨S64x1, .f32⟩
  | .local _ .vmem, ⟨4, _⟩ => ⟨S4096x1, .f32⟩
  | .local _ .vmem, ⟨5, _⟩ => ⟨S4096x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v4 : Index := Scalar.indexCast arg0
  let c0_0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  shapeCasts_S64x256x1_S64x256 : S64x256x1.ShapeCasts S64x256
  h_S1x256 : 0 < S1x256.numel
  shapeCasts_S1x256_S256 : S1x256.ShapeCasts S256
  bitsLt_bf16_f32 : FTy.bits .bf16 < FTy.bits .f32
  h_S1x1 : 0 < S1x1.numel
  shapeCasts_S1x1_S1 : S1x1.ShapeCasts S1
  inb_S4096x256_S4096x256_0_0 : ∀ a, (![0, 0] : Fin 2 → Nat) a + S4096x256.size a ≤ S4096x256.size a
  h_S4096x256 : 0 < S4096x256.numel
  shapeCasts_S256_S1x256 : S256.ShapeCasts S1x256
  broadcasts_S1x256_S4096x256 : S1x256.Broadcasts S4096x256
  reduces_S4096x256_S4096 : S4096x256.Reduces [1] S4096
  shapeCasts_S4096_S4096x1 : S4096.ShapeCasts S4096x1
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S262144x1_S262144 : S262144x1.ShapeCasts S262144
  slices_S262144_S262143_0 : S262144.Slices ![0] S262143
  gather_S8x256x1_S64x1_S64x256x1_12_0_n_n_0_1_12561_wf : GatherDims.WF S8x256x1 S64x1 S64x256x1 [1, 2] [0] [] [0] [] 1 ![1, 256, 1]
  gather_S8x1_S64x1_S64x1_1_0_n_n_0_1_11_wf : GatherDims.WF S8x1 S64x1 S64x1 [1] [0] [] [0] [] 1 ![1, 1]
  hrank0 : 0 < grid0.rank
  k0_off1_inb : ∀ i : grid0.Coords, ∀ a, (k0_off1 i) a + S1x256.size a ≤ S64x256.size a
  k0_off2_inb : ∀ i : grid0.Coords, ∀ a, (k0_off2 i) a + S1x1.size a ≤ S64x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S262144x1.size a
  hwx0_3 : ∀ i : grid0.Coords, EltTy.bits .f32 = 32 ∨ (Rect.block (s := S262144x1) S4096x1.size (cc0_transform_3 i) (hinb0_3 i)).WholeWords (EltTy.packing .f32)

variable [Facts₀]

def gather_S8x256x1_S64x1_S64x256x1_12_0_n_n_0_1_12561 : GatherDims S8x256x1 S64x1 S64x256x1 where
  offsetDims := [1, 2]
  collapsedSliceDims := [0]
  operandBatchingDims := []
  startIndicesBatchingDims := []
  startIndexMap := [0]
  indexVectorDim := 1
  sliceSizes := ![1, 256, 1]
  wf := gather_S8x256x1_S64x1_S64x256x1_12_0_n_n_0_1_12561_wf
def gather_S8x1_S64x1_S64x1_1_0_n_n_0_1_11 : GatherDims S8x1 S64x1 S64x1 where
  offsetDims := [1]
  collapsedSliceDims := [0]
  operandBatchingDims := []
  startIndicesBatchingDims := []
  startIndexMap := [0]
  indexVectorDim := 1
  sliceSizes := ![1, 1]
  wf := gather_S8x1_S64x1_S64x1_1_0_n_n_0_1_11_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S8x256x1 : Shape := ⟨3, ![8, 256, 1]⟩
abbrev S8x1 : Shape := ⟨2, ![8, 1]⟩
abbrev S64 : Shape := ⟨1, ![64]⟩
abbrev S64x4096x256 : Shape := ⟨3, ![64, 4096, 256]⟩
abbrev S_ : Shape := ⟨0, ![]⟩
abbrev S64x1 : Shape := ⟨2, ![64, 1]⟩
abbrev S64x256x1 : Shape := ⟨3, ![64, 256, 1]⟩
abbrev S64x4096x1 : Shape := ⟨3, ![64, 4096, 1]⟩
abbrev S64x1x1 : Shape := ⟨3, ![64, 1, 1]⟩
abbrev S262144 : Shape := ⟨1, ![262144]⟩
abbrev S262143 : Shape := ⟨1, ![262143]⟩

abbrev nBuf : Space → Nat
  | .hbm => 29
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S8x256x1, .f32⟩
  | .hbm, ⟨2, _⟩ => ⟨S8x1, .f32⟩
  | .hbm, ⟨3, _⟩ => ⟨S64, .i32⟩
  | .hbm, ⟨4, _⟩ => ⟨S64x4096x256, .f32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S64x256x1, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S64x1, .f32⟩
  | .hbm, ⟨23, _⟩ => ⟨S64x4096x1, .f32⟩
  | .hbm, ⟨24, _⟩ => ⟨S64x1x1, .f32⟩
  | .hbm, ⟨25, _⟩ => ⟨S64x4096x1, .f32⟩
  | .hbm, ⟨26, _⟩ => ⟨S64x4096x1, .f32⟩
  | .hbm, ⟨27, _⟩ => ⟨S262144, .f32⟩
  | .hbm, ⟨28, _⟩ => ⟨S262143, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  shapeCasts_S262144x256_S64x4096x256 : S262144x256.ShapeCasts S64x4096x256
  bcast_S_S64 : S_.BroadcastsInDim S64 (![] : Fin 0 → Fin S64.rank)
  bcast_S64_S64x1_0 : S64.BroadcastsInDim S64x1 (![0] : Fin 1 → Fin S64x1.rank)
  bcast_S64x1_S64x1x1_0_2 : S64x1.BroadcastsInDim S64x1x1 (![0, 2] : Fin 2 → Fin S64x1x1.rank)
  bcast_S64x1x1_S64x4096x1_0_1_2 : S64x1x1.BroadcastsInDim S64x4096x1 (![0, 1, 2] : Fin 3 → Fin S64x4096x1.rank)
  shapeCasts_S64x4096x1_S262144 : S64x4096x1.ShapeCasts S262144
  slices_S262144_S262143_0 : S262144.Slices ![0] S262143
  gather_S8x256x1_S64x1_S64x256x1_12_0_n_n_0_1_12561_wf : GatherDims.WF S8x256x1 S64x1 S64x256x1 [1, 2] [0] [] [0] [] 1 ![1, 256, 1]
  gather_S8x1_S64x1_S64x1_1_0_n_n_0_1_11_wf : GatherDims.WF S8x1 S64x1 S64x1 [1] [0] [] [0] [] 1 ![1, 1]
  dot_S64x4096x256_S64x256x1_S64x4096x1_2_1_1_2_0_0_wf : DotDims.WF S64x4096x256 S64x256x1 S64x4096x1 [2] [1] [1] [2] [0] [0]

variable [Facts₀]

def gather_S8x256x1_S64x1_S64x256x1_12_0_n_n_0_1_12561 : GatherDims S8x256x1 S64x1 S64x256x1 where
  offsetDims := [1, 2]
  collapsedSliceDims := [0]
  operandBatchingDims := []
  startIndicesBatchingDims := []
  startIndexMap := [0]
  indexVectorDim := 1
  sliceSizes := ![1, 256, 1]
  wf := gather_S8x256x1_S64x1_S64x256x1_12_0_n_n_0_1_12561_wf
def gather_S8x1_S64x1_S64x1_1_0_n_n_0_1_11 : GatherDims S8x1 S64x1 S64x1 where
  offsetDims := [1]
  collapsedSliceDims := [0]
  operandBatchingDims := []
  startIndicesBatchingDims := []
  startIndexMap := [0]
  indexVectorDim := 1
  sliceSizes := ![1, 1]
  wf := gather_S8x1_S64x1_S64x1_1_0_n_n_0_1_11_wf
def dot_S64x4096x256_S64x256x1_S64x4096x1_2_1_1_2_0_0 : DotDims S64x4096x256 S64x256x1 S64x4096x1 where
  lhsContracting := [2]
  rhsContracting := [1]
  lhsNonContracting := [1]
  rhsNonContracting := [2]
  lhsBatch := [0]
  rhsBatch := [0]
  wf := dot_S64x4096x256_S64x256x1_S64x4096x1_2_1_1_2_0_0_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelPayload.lean ====
/-
  The value one grid point's body stores, read at a row: for the rows `hblk` of the point's block of `h`, the node's
  weight row `wrow` and its bias `bval`, row `p` of the stored column is the dot product of row `p` with the weight
  row, plus the bias. At the ideal instance the two roundings to bf16 and the widening back are the identity, so the
  lane sum of the products is that dot product over the extended reals.
-/
import proofs.«125142_j44263932952755_1_alg».proof.Proof.Gen.KernelIdeal.Skeleton
import proofs.«125142_j44263932952755_1_alg».proof.Proof.LibRowOps

noncomputable section

namespace Cert.KernelIdeal.HeadValue

open Cert.KernelIdeal Cert.KernelIdeal.Gen Idealize.ShloMosaic Idealize.ShloMosaic.ValueIdx

variable [Facts]

/-- Row `p` of the column a grid point stores: `Σ_k hblk (p, k) · wrow (0, k) + bval (0, 0)`. -/
theorem pay_apply (wrow : Vec Ideal S1x256 .f32) (bval : Vec Ideal S1x1 .f32) (hblk : Vec Ideal S4096x256 .f32)
    (p : Fin 4096) (u : Fin 1) :
    k0_pay1 (F := Ideal) wrow bval hblk (ix2 p u)
      = (∑ k : Fin 256, hblk (ix2 p k) * wrow (ix2 (0 : Fin 1) k)) + bval (ix2 (0 : Fin 1) (0 : Fin 1)) := by
  have hu : u = 0 := Subsingleton.elim _ _
  subst hu
  unfold k0_pay1
  dsimp only
  rw [addf_apply, Cert.RowOps.shapeCast_a_a1_apply, broadcastTo_1b_ab_apply, shapeCast_a_1a_apply, shapeCast_1a_a_apply]
  refine congrArg (· + bval (ix2 (0 : Fin 1) (0 : Fin 1))) ?_
  refine (Cert.RowOps.laneSum_apply _ _ _ _ _ p).trans ?_
  refine Finset.sum_congr rfl fun k _ => ?_
  rw [extf_apply, mulf_apply, truncf_apply, broadcastTo_1b_ab_apply, shapeCast_a_1a_apply, truncf_apply,
    shapeCast_1a_a_apply]

end Cert.KernelIdeal.HeadValue

end
-- ==== Proof.KernelPoint.lean ====
/-
  What one grid point stores. Point `t` owns node `t`'s 4096 rows of `h`; it reads row `t` of the per-node weight
  table and entry `t` of the per-node bias column, and stores, for each of its rows, the dot product with that weight
  row plus that bias. Here the stored column is read off the body's run, and each input block is read off the array the
  region finds: the block of `h` is rows `4096 t` to `4096 t + 4095`, the two tables are whole.
-/
import proofs.«125142_j44263932952755_1_alg».proof.Proof.Gen.KernelIdeal.Frame
import proofs.«125142_j44263932952755_1_alg».proof.Proof.KernelPayload
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.HeadValue

open Cert.KernelIdeal Cert.KernelIdeal.Gen Idealize.ShloMosaic.ValueIdx

theorem hz : (![0, 0] : Fin 2 → Nat) = fun _ => 0 := funext fun a => by fin_cases a <;> rfl

/-- The body's one store covers the output block, so what it leaves there is its payload: of the loaded weight row,
    the loaded bias and the whole block of `h`. -/
theorem out_A {F : FTy → Type} [FloatOps F] (c : Dev nD) (i : grid0.Coords)
    (a1 : Memref sig .tc .vmem S4096x256 .f32) (h1 : a1.IsWhole)
    (a2 : Memref sig .tc .vmem S64x256 .f32) (h2 : a2.IsWhole) (a3 : Memref sig .tc .vmem S64x1 .f32) (h3 : a3.IsWhole)
    (a4 : Memref sig .tc .vmem S4096x1 .f32) (h4 : a4.IsWhole)
    (x0 : Vec F S4096x256 .f32) (x1 : Vec F S64x256 .f32) (x2 : Vec F S64x1 .f32) :
    out0_A_3 c i a1 h1 a2 h2 a3 h3 a4 h4 x0 x1 x2
      = k0_pay1 (View.ld x1 (Rect.unit (s := S64x256) (k0_off1 i) S1x256.size (k0_off1_inb i)))
          (View.ld x2 (Rect.unit (s := S64x1) (k0_off2 i) S1x1.size (k0_off2_inb i))) x0 := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz]
  simp only [View.readAt_eq_ld, h1.read_unread, h2.read_unread, h3.read_unread, View.ld_unit_zero (S := S4096x256) hz]

/-- The index maps and the body's two row offsets, decided over the 64 grid points: the block of `h` and the output
    block move with the point, the two tables stay, and the body reads row `t` of each table. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ k0_off1 (grid0.coords t) (0 : Fin 2) = t.val ∧ k0_off1 (grid0.coords t) (1 : Fin 2) = 0
    ∧ k0_off2 (grid0.coords t) (0 : Fin 2) = t.val ∧ k0_off2 (grid0.coords t) (1 : Fin 2) = 0 :=
  (by decide +kernel : ∀ t : Fin grid0.N, _)

/-- Point `t`'s node, and the row of `h` its block's row `p` is. -/
def nodeOf (t : Fin cfg0.N) : Fin 64 := ⟨t.val, by have := t.isLt; have hN : cfg0.N = 64 := N_0; omega⟩
def rowOf (t : Fin cfg0.N) (p : Fin 4096) : Fin 262144 :=
  ⟨t.val * 4096 + p.val, by have := t.isLt; have hN : cfg0.N = 64 := N_0; have := p.isLt; omega⟩

/-- The weight row the body loads at point `t` is row `t` of the table it is given; -/
theorem ld_wrow (x1 : Vec Ideal S64x256 .f32) (t : Fin cfg0.N) (k : Fin 256) :
    View.ld x1 (Rect.unit (s := S64x256) (k0_off1 (grid0.coords t)) S1x256.size (k0_off1_inb (grid0.coords t)))
        (ix2 (0 : Fin 1) k) = x1 (ix2 (nodeOf t) k) := by
  obtain ⟨-, -, -, -, -, -, -, -, e8, e9, -, -⟩ := idx_facts t
  refine congrArg x1 (funext fun a => Fin.ext ?_)
  match a with
  | ⟨0, _⟩ => show k0_off1 (grid0.coords t) (0 : Fin 2) + 1 * 0 = t.val; rw [e8]; omega
  | ⟨1, _⟩ => show k0_off1 (grid0.coords t) (1 : Fin 2) + 1 * k.val = k.val; rw [e9]; omega

/-- and the bias entry `t` of the column it is given. -/
theorem ld_bval (x2 : Vec Ideal S64x1 .f32) (t : Fin cfg0.N) :
    View.ld x2 (Rect.unit (s := S64x1) (k0_off2 (grid0.coords t)) S1x1.size (k0_off2_inb (grid0.coords t)))
        (ix2 (0 : Fin 1) (0 : Fin 1)) = x2 (ix2 (nodeOf t) (0 : Fin 1)) := by
  obtain ⟨-, -, -, -, -, -, -, -, -, -, e10, e11⟩ := idx_facts t
  refine congrArg x2 (funext fun a => Fin.ext ?_)
  match a with
  | ⟨0, _⟩ => show k0_off2 (grid0.coords t) (0 : Fin 2) + 1 * 0 = t.val; rw [e10]; omega
  | ⟨1, _⟩ => show k0_off2 (grid0.coords t) (1 : Fin 2) + 1 * 0 = 0; rw [e11]

/-- Row `p` of what point `t` stores, for any contents of its three input buffers: the dot product of row `p` of the
    block with row `t` of the table, plus entry `t` of the bias column. -/
theorem stored_apply (c : Dev nD) (t : Fin cfg0.N)
    (a1 : Memref sig .tc .vmem S4096x256 .f32) (h1 : a1.IsWhole)
    (a2 : Memref sig .tc .vmem S64x256 .f32) (h2 : a2.IsWhole) (a3 : Memref sig .tc .vmem S64x1 .f32) (h3 : a3.IsWhole)
    (a4 : Memref sig .tc .vmem S4096x1 .f32) (h4 : a4.IsWhole)
    (x0 : Vec Ideal S4096x256 .f32) (x1 : Vec Ideal S64x256 .f32) (x2 : Vec Ideal S64x1 .f32) (p : Fin 4096) (u : Fin 1) :
    out0_A_3 (F := Ideal) c (grid0.coords t) a1 h1 a2 h2 a3 h3 a4 h4 x0 x1 x2 (ix2 p u)
      = (∑ k : Fin 256, x0 (ix2 p k) * x1 (ix2 (nodeOf t) k)) + x2 (ix2 (nodeOf t) (0 : Fin 1)) := by
  refine (congrFun (out_A (F := Ideal) c (grid0.coords t) a1 h1 a2 h2 a3 h3 a4 h4 x0 x1 x2) (ix2 p u)).trans ?_
  refine (pay_apply _ _ x0 p u).trans ?_
  rw [ld_bval x2 t]
  refine congrArg (· + x2 (ix2 (nodeOf t) (0 : Fin 1))) ?_
  exact Finset.sum_congr rfl fun k _ => by rw [ld_wrow x1 t k]

end Cert.KernelIdeal.HeadValue

end
-- ==== Proof.HeadSpec.lean ====
/-
  The function both programs compute. The rows of `h` are grouped 4096 to a node; a node has a weight row and a bias
  (those of its type). Row `r` of the output is the dot product of row `r` of `h` with its node's weight row, plus the
  node's bias; the result keeps every row but the last.
-/
import Idealize.ShloMosaic.PureOps.Ideal
import Idealize.ShloMosaic.Lib.ValueIdx

noncomputable section

namespace Cert.HeadSpec

open Idealize.ShloMosaic Idealize.ShloMosaic.ValueIdx

/-- The node a row belongs to. -/
def node (r : Fin 262144) : Fin 64 := ⟨r.val / 4096, by have := r.isLt; omega⟩

/-- Row `r`'s output: `Σ_k h (r, k) · w (node r, k) + b (node r)`, over the extended reals. -/
def headRow (h : (⟨2, ![262144, 256]⟩ : Shape).Idx → EReal) (wAt : Fin 64 → Fin 256 → EReal) (bAt : Fin 64 → EReal)
    (r : Fin 262144) : EReal :=
  (∑ k : Fin 256, h (ix2 r k) * wAt (node r) k) + bAt (node r)

/-- The result: the outputs of rows 0 to 262142. -/
def heads (h : (⟨2, ![262144, 256]⟩ : Shape).Idx → EReal) (wAt : Fin 64 → Fin 256 → EReal) (bAt : Fin 64 → EReal) :
    (⟨1, ![262143]⟩ : Shape).Idx → EReal :=
  fun j => headRow h wAt bAt ⟨(j 0).val, by have hj : (j 0).val < 262143 := (j 0).isLt; omega⟩

end Cert.HeadSpec

end
-- ==== Proof.KernelValue.lean ====
/-
  The kernel's result. The 64 output blocks tile the `[262144, 1]` column: row `r` lies in the block of point
  `r / 4096`, which stored there the dot product of row `r` of `h` with node `r / 4096`'s weight row plus that node's
  bias. The weight table the region finds is the gathered `[64, 256, 1]` weights with the unit axis dropped, the bias
  column the gathered biases. After the region the column is flattened and its last entry dropped: the head values of
  rows 0 to 262142.
-/
import proofs.«125142_j44263932952755_1_alg».proof.Proof.KernelPoint
import proofs.«125142_j44263932952755_1_alg».proof.Proof.HeadSpec
import Idealize.ShloMosaic.Lib.StableHlo.Run

noncomputable section

open Idealize.ShloMosaic Idealize.ShloMosaic.TcCoe Idealize.SL.Sem
open Idealize.ShloMosaic.Pipeline (Dat)

namespace Cert.KernelIdeal.HeadValue

open Cert.KernelIdeal Cert.KernelIdeal.Gen Idealize.ShloMosaic.ValueIdx

variable (m : (ℓ : Loc nD τ sig) → Buf (Elt Ideal) ℓ) (ρ : Dev nD → PrngReg)

/-! ## The arrays the region finds, and the blocks the points read -/

abbrev harr (c : Dev nD) : Vec Ideal S262144x256 .f32 := V m c main_arg0
abbrev warr (c : Dev nD) : Vec Ideal S64x256 .f32 := V m c main_v7
abbrev barr (c : Dev nD) : Vec Ideal S64x1 .f32 := V m c main_v14
abbrev hblk (c : Dev nD) (t : Fin cfg0.N) : Vec Ideal S4096x256 .f32 := iblk m c 0 t
abbrev wblk (c : Dev nD) (t : Fin cfg0.N) : Vec Ideal S64x256 .f32 := iblk m c 1 t
abbrev bblk (c : Dev nD) (t : Fin cfg0.N) : Vec Ideal S64x1 .f32 := iblk m c 2 t

/-- Row `p` of point `t`'s block of `h` is row `4096 t + p` of `h`. -/
theorem hblk_apply (c : Dev nD) (t : Fin cfg0.N) (p : Fin 4096) (k : Fin 256) :
    hblk m c t (ix2 p k) = harr m c (ix2 (rowOf t p) k) := by
  obtain ⟨e0, e1, -⟩ := idx_facts t
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 256 + 1 * k.val = k.val; rw [e1]; omega

/-- Every point's block of the weight table is the whole table, -/
theorem wblk_eq (c : Dev nD) (t : Fin cfg0.N) : wblk m c t = warr m c := by
  obtain ⟨-, -, e2, e3, -⟩ := idx_facts t
  funext j
  show V m c main_v7 (((cfg0.win 1).blk t).view.emb j) = V m c main_v7 j
  refine congrArg (V m c main_v7) (funext fun a => Fin.ext ?_)
  match a with
  | ⟨0, _⟩ => show win0_1.index t (0 : Fin 2) * 64 + 1 * (j 0).val = (j 0).val; rw [e2]; omega
  | ⟨1, _⟩ => show win0_1.index t (1 : Fin 2) * 256 + 1 * (j 1).val = (j 1).val; rw [e3]; omega

/-- and of the bias column the whole column. -/
theorem bblk_eq (c : Dev nD) (t : Fin cfg0.N) : bblk m c t = barr m c := by
  obtain ⟨-, -, -, -, e4, e5, -⟩ := idx_facts t
  funext j
  show V m c main_v14 (((cfg0.win 2).blk t).view.emb j) = V m c main_v14 j
  refine congrArg (V m c main_v14) (funext fun a => Fin.ext ?_)
  match a with
  | ⟨0, _⟩ => show win0_2.index t (0 : Fin 2) * 64 + 1 * (j 0).val = (j 0).val; rw [e4]; omega
  | ⟨1, _⟩ => show win0_2.index t (1 : Fin 2) * 1 + 1 * (j 1).val = (j 1).val; rw [e5]; omega

/-! ## The column the region leaves -/

/-- Row `r`'s head value over the arrays the region finds. -/
def rowVal (c : Dev nD) (r : Fin 262144) : EReal :=
  Cert.HeadSpec.headRow (harr m c) (fun n k => warr m c (ix2 n k)) (fun n => barr m c (ix2 n (0 : Fin 1))) r

/-- The `[262144, 1]` column of head values. -/
def colOf (c : Dev nD) : Vec Ideal S262144x1 .f32 := fun i => rowVal m c ⟨(i 0).val, (i 0).isLt⟩

theorem colOf_ix2 (c : Dev nD) (r : Fin 262144) (u : Fin 1) : colOf m c (ix2 r u) = rowVal m c r := rfl

theorem node_rowOf (t : Fin cfg0.N) (p : Fin 4096) : Cert.HeadSpec.node (rowOf t p) = nodeOf t :=
  Fin.ext (by show (t.val * 4096 + p.val) / 4096 = t.val; have := p.isLt; omega)

/-- What point `t` writes back is block `t` of the column of head values. -/
theorem flushed_eq (c : Dev nD) (t : Fin cfg0.N) :
    (dats m 0 c).flushed 3 t = ((cfg0.win 3).blk t).view.read (Elt Ideal) (colOf m c) := by
  have key : ∀ j : S4096x1.Idx, outsAt0 m c t j = colOf m c (((cfg0.win 3).blk t).view.emb j) := by
    intro j
    obtain ⟨p, u, rfl⟩ : ∃ (p : Fin 4096) (u : Fin 1), j = ix2 p u := ⟨j 0, j 1, eq_ix2 j⟩
    obtain ⟨-, -, -, -, -, -, e6, e7, -⟩ := idx_facts t
    have hemb : ((cfg0.win 3).blk t).view.emb (ix2 p u) = (ix2 (rowOf t p) u : S262144x1.Idx) :=
      funext fun a => Fin.ext (by
        match a with
        | ⟨0, _⟩ => show win0_3.index t (0 : Fin 2) * 4096 + 1 * p.val = t.val * 4096 + p.val; rw [e6]; omega
        | ⟨1, _⟩ => show win0_3.index t (1 : Fin 2) * 1 + 1 * u.val = u.val; rw [e7]; omega)
    rw [hemb, colOf_ix2]
    unfold outsAt0
    refine (stored_apply c t (ms0_0 t) (hs0_0 t) (ms0_1 t) (hs0_1 t) (ms0_2 t) (hs0_2 t) (ms0_3 t) (hs0_3 t)
      (hblk m c t) (wblk m c t) (bblk m c t) p u).trans ?_
    unfold rowVal Cert.HeadSpec.headRow
    rw [node_rowOf, wblk_eq, bblk_eq]
    exact congrArg (· + barr m c (ix2 (nodeOf t) (0 : Fin 1)))
      (Finset.sum_congr rfl fun k _ => by rw [hblk_apply])
  show (cfg0.win 3).cut (grid0.coords t) ((dats m 0 c).after 3 t) = _
  rw [after0_3]
  exact funext key

/-- An index of the column is in point `t`'s block iff each coordinate is in the block's range on its axis. -/
theorem mem_blk (t : Fin cfg0.N) (i : S262144x1.Idx) :
    i ∈ ((cfg0.win 3).blk t).view.set ↔ ∀ a : Fin 2, win0_3.index t a * S4096x1.size a ≤ (i a).val
      ∧ (i a).val < win0_3.index t a * S4096x1.size a + S4096x1.size a := by
  show i ∈ ((View.whole main_v15).slice (win0_3.rect t)).set ↔ _
  rw [View.set_slice_whole, Rect.mem_set_unit]
  exact Iff.rfl

/-- The blocks tile the column (row `r` is in the block of point `r / 4096`), so the region leaves the column of head
    values. -/
theorem final (c : Dev nD) : (dats m 0 c).arrAt 3 cfg0.N = colOf m c :=
  (dats m 0 c).arrAt_eq_of_cover 3 (colOf m c) (fun t _ => flushed_eq m c t) fun i => by
    have hi0 : (i 0).val < 262144 := (i 0).isLt
    have hi1 : (i 1).val < 1 := (i 1).isLt
    have hN : cfg0.N = 64 := N_0
    obtain ⟨t, ht⟩ : ∃ t : Fin cfg0.N, t.val = (i 0).val / 4096 := ⟨⟨(i 0).val / 4096, by omega⟩, rfl⟩
    obtain ⟨-, -, -, -, -, -, e6, e7, -⟩ := idx_facts t
    refine ⟨t, flush0_3 t, ?_⟩
    rw [mem_blk]
    intro a
    match a with
    | ⟨0, _⟩ =>
      show win0_3.index t (0 : Fin 2) * 4096 ≤ (i 0).val ∧ (i 0).val < win0_3.index t (0 : Fin 2) * 4096 + 4096
      rw [e6]; omega
    | ⟨1, _⟩ =>
      show win0_3.index t (1 : Fin 2) * 1 ≤ (i 1).val ∧ (i 1).val < win0_3.index t (1 : Fin 2) * 1 + 1
      rw [e7]; omega

/-! ## The tables the host wrote before the region -/

/-- The node types as gather indices: a negative type is moved up by the number of types, then a unit axis is added. -/
abbrev typeIdx (ty : (⟨S64, .i32⟩ : BufTy).Contents (Elt Ideal)) : (⟨S64x1, .i32⟩ : BufTy).Contents (Elt Ideal) :=
  broadcastInDim S64x1 ![0] bcast_S64_S64x1_0
    (select (cmpi .slt ty (broadcastInDim S64 ![] bcast_S_S64 (constantI S_ 32 0#32)))
      (addi ty (broadcastInDim S64 ![] bcast_S_S64 (constantI S_ 32 8#32))) ty)

/-- Each node's weight column, gathered by its type. -/
abbrev nodeW (W : (⟨S8x256x1, .f32⟩ : BufTy).Contents (Elt Ideal)) (ty : (⟨S64, .i32⟩ : BufTy).Contents (Elt Ideal)) :
    (⟨S64x256x1, .f32⟩ : BufTy).Contents (Elt Ideal) :=
  Host.gather gather_S8x256x1_S64x1_S64x256x1_12_0_n_n_0_1_12561 W (typeIdx ty)

/-- Each node's bias, gathered by its type. -/
abbrev nodeB (B : (⟨S8x1, .f32⟩ : BufTy).Contents (Elt Ideal)) (ty : (⟨S64, .i32⟩ : BufTy).Contents (Elt Ideal)) :
    (⟨S64x1, .f32⟩ : BufTy).Contents (Elt Ideal) :=
  Host.gather gather_S8x1_S64x1_S64x1_1_0_n_n_0_1_11 B (typeIdx ty)

theorem harr_eq (c : Dev nD) : harr m c = m ((c : Thread nD τ).loc main_arg0) := V_main_arg0 m c

/-- The weight table the region finds is the gathered weights with the trailing unit axis dropped. -/
theorem warr_eq (c : Dev nD) : warr m c
    = shapeCast S64x256 (nodeW (m ((c : Thread nD τ).loc main_arg1)) (m ((c : Thread nD τ).loc main_arg3)))
        shapeCasts_S64x256x1_S64x256 := by
  show StableHlo.after hostOps0 (fun b => m (c, b)) (Proc.devRef .tc main_v7) = _
  after_results <;> rfl

/-- The bias column the region finds is the gathered biases. -/
theorem barr_eq (c : Dev nD) : barr m c
    = nodeB (m ((c : Thread nD τ).loc main_arg2)) (m ((c : Thread nD τ).loc main_arg3)) := by
  show StableHlo.after hostOps0 (fun b => m (c, b)) (Proc.devRef .tc main_v14) = _
  after_results <;> rfl

/-- Entry `(n, k)` of the table is entry `(n, k, 0)` of the gathered weights. -/
theorem warr_apply (c : Dev nD) (n : Fin 64) (k : Fin 256) : warr m c (ix2 n k)
    = nodeW (m ((c : Thread nD τ).loc main_arg1)) (m ((c : Thread nD τ).loc main_arg3)) (ix3 n k (0 : Fin 1)) := by
  rw [warr_eq]
  exact shapeCast_apply _ shapeCasts_S64x256x1_S64x256 (ix2 n k) (ix3 n k (0 : Fin 1)) (by
    rw [Shape.rowMajor_val_three, Shape.rowMajor_val_two]
    show (n.val * 256 + k.val) * 1 + 0 = n.val * 256 + k.val
    omega)

/-! ## The result -/

/-- The kernel's result: the head values of rows 0 to 262142 over the arguments, the per-node weights and biases the
    gathered tables. -/
abbrev result (c : Dev nD) : Vec Ideal S262143 .f32 :=
  Cert.HeadSpec.heads (m ((c : Thread nD τ).loc main_arg0))
    (fun n k => nodeW (m ((c : Thread nD τ).loc main_arg1)) (m ((c : Thread nD τ).loc main_arg3)) (ix3 n k (0 : Fin 1)))
    (fun n => nodeB (m ((c : Thread nD τ).loc main_arg2)) (m ((c : Thread nD τ).loc main_arg3)) (ix2 n (0 : Fin 1)))

/-- Row `r`'s head value over the arrays the region finds is its head value over the arguments. -/
theorem rowVal_eq (c : Dev nD) (r : Fin 262144) : rowVal m c r
    = Cert.HeadSpec.headRow (m ((c : Thread nD τ).loc main_arg0))
        (fun n k => nodeW (m ((c : Thread nD τ).loc main_arg1)) (m ((c : Thread nD τ).loc main_arg3)) (ix3 n k (0 : Fin 1)))
        (fun n => nodeB (m ((c : Thread nD τ).loc main_arg2)) (m ((c : Thread nD τ).loc main_arg3)) (ix2 n (0 : Fin 1))) r := by
  unfold rowVal
  rw [harr_eq, barr_eq]
  exact congrArg (fun w => Cert.HeadSpec.headRow _ w _ r) (funext fun n => funext fun k => warr_apply m c n k)

/-- After the region the column is flattened and its last entry dropped. -/
theorem tail_eq (c : Dev nD) :
    Pipeline.afterTail₀ cfgs (dats m) 0 (V0 m) [hostOps1] c main_v17 = result m c := by
  have hA : Pipeline.withArrays (cfgs 0).spec c (V0 m c) (fun w => (dats m 0 c).arrAt w (cfgs 0).N)
      (Proc.devRef .tc main_v15) = colOf m c :=
    (Pipeline.withArrays_arr spec0 launch0.win.arr_inj c _ _ 3).trans (final m c)
  unfold Pipeline.afterTail₀
  show StableHlo.after hostOps1 _ (Proc.devRef .tc main_v17) = _
  after_results
  show extractStridedSlice S262143 ![0]
    (shapeCast S262144 (Pipeline.withArrays (cfgs 0).spec c (V0 m c) (fun w => (dats m 0 c).arrAt w (cfgs 0).N)
      (Proc.devRef .tc main_v15)) shapeCasts_S262144x1_S262144) slices_S262144_S262143_0 = _
  rw [hA]
  funext j
  have hj : (j 0).val < 262143 := (j 0).isLt
  obtain ⟨r, hr⟩ : ∃ r : Fin 262144, r.val = (j 0).val := ⟨⟨(j 0).val, by omega⟩, rfl⟩
  rw [extractStridedSlice_apply ![0] _ slices_S262144_S262143_0 j (ix1 r) (fun a => by
        match a with
        | ⟨0, _⟩ => show r.val = 0 + (j 0).val; omega),
    shapeCast_apply _ shapeCasts_S262144x1_S262144 (ix1 r) (ix2 r (0 : Fin 1)) (by
        rw [Shape.rowMajor_val_two, Shape.rowMajor_val_one]
        show r.val * 1 + 0 = r.val
        omega),
    colOf_ix2, rowVal_eq]
  show _ = Cert.HeadSpec.headRow _ _ _ _
  exact congrArg (Cert.HeadSpec.headRow _ _ _) (Fin.ext hr)

/-- The kernel's run, read: the result at the head values, the arguments unchanged. -/
theorem run : θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v17 (Pipeline.mem_restRefs_of main_v17 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HeadValue

end
-- ==== Proof.RefValue.lean ====
/-
  The reference, read at an index. Its result at `j` is entry `j` of the flattened `[64, 4096, 1]` array, that is entry
  `(j / 4096, j % 4096, 0)`: the batched product contracts the 256 columns of row `j` of `h` (row `j % 4096` of node
  `j / 4096`'s group, which is row `j` again) with the node's gathered weight column, and the gathered bias of the
  node is added. That is the specification's head value of row `j`, with the gathered tables as the per-node weights
  and biases.
-/
import proofs.«125142_j44263932952755_1_alg».proof.Proof.Gen.ReferenceIdeal.Run
import proofs.«125142_j44263932952755_1_alg».proof.Proof.Gen.ReferenceIdeal.Read
import proofs.«125142_j44263932952755_1_alg».proof.Proof.HeadSpec

noncomputable section

namespace Cert.ReferenceIdeal.HeadValue

open Cert.ReferenceIdeal Cert.ReferenceIdeal.Gen Cert.ReferenceIdeal.Read
open Idealize.ShloMosaic Idealize.ShloMosaic.TcCoe Idealize.ShloMosaic.ValueIdx

/-- The reference's result is the head values of rows 0 to 262142, the per-node weights and biases being the gathered
    tables. -/
theorem result_eq (x0 : (⟨S262144x256, .f32⟩ : BufTy).Contents (Elt Ideal)) (x1 : (⟨S8x256x1, .f32⟩ : BufTy).Contents (Elt Ideal))
    (x2 : (⟨S8x1, .f32⟩ : BufTy).Contents (Elt Ideal)) (x3 : (⟨S64, .i32⟩ : BufTy).Contents (Elt Ideal)) :
    val_main_v20 (F := Ideal) x0 x1 x2 x3
      = Cert.HeadSpec.heads x0 (fun n k => val_main_v7 (F := Ideal) x1 x3 (ix3 n k (0 : Fin 1)))
          (fun n => val_main_v14 (F := Ideal) x2 x3 (ix2 n (0 : Fin 1))) := by
  funext j
  have hj : (j 0).val < 262143 := (j 0).isLt
  rw [val_main_v20_apply, val_main_v19_apply, val_main_v18_apply, val_main_v15_apply, val_main_v17_apply,
    val_main_v16_apply, Ideal.addf_def]
  unfold Cert.HeadSpec.heads Cert.HeadSpec.headRow
  refine congrArg₂ (· + ·) (Finset.sum_congr rfl fun k _ => ?_) ?_
  · rw [val_main_v0_apply]
    refine congrArg₂ (· * ·) (congrArg x0 (funext fun a => Fin.ext ?_))
      (congrArg (val_main_v7 (F := Ideal) x1 x3) (funext fun a => Fin.ext ?_))
    · match a with
      | ⟨0, _⟩ =>
        show (((j 0).val / 4096 * 4096 + (j 0).val / 1 % 4096) * 256 + k.val) / 256 = (j 0).val
        have hk := k.isLt; omega
      | ⟨1, _⟩ =>
        show (((j 0).val / 4096 * 4096 + (j 0).val / 1 % 4096) * 256 + k.val) % 256 = k.val
        have hk := k.isLt; omega
    · match a with
      | ⟨0, _⟩ => rfl
      | ⟨1, _⟩ => rfl
      | ⟨2, _⟩ => rfl
  · refine congrArg (val_main_v14 (F := Ideal) x2 x3) (funext fun a => Fin.ext ?_)
    match a with
    | ⟨0, _⟩ => rfl
    | ⟨1, _⟩ => rfl

end Cert.ReferenceIdeal.HeadValue

end
-- ==== Proof.lean ====
/-
  Per-node linear heads: `out[r] = Σ_k h[r, k] · W[type[r / 4096], k, 0] + b[type[r / 4096], 0]` for the rows
  `r < 262143` of `h : [262144, 256]`, the 4096 rows of a node sharing the weights and bias of the node's type.

  The kernel gathers a `[64, 256]` weight table and a `[64, 1]` bias column by node type on the host, and at grid
  point `t` multiplies the 4096 rows of node `t` by row `t` of the table, sums over the 256 lanes and adds entry `t`
  of the bias column; the host then flattens the `[262144, 1]` column and drops its last entry. The reference views
  `h` as `[64, 4096, 256]`, contracts it with the gathered `[64, 256, 1]` weights node by node, adds the gathered
  bias, flattens and drops the last entry. Over the extended reals the roundings to bf16 are the identity and a lane
  sum of products is the contraction, so both are the same sum for every row, whatever the inputs: no law that needs
  finite entries is used. The two gathers are the same operation of the same indices (a negative type moved up by 8)
  on both sides, so they are never opened.

  The three frames are the generated ones (the reference's is its run with the result dropped); the ideal pass rewrote
  nothing, so its conjunct is trivial.
-/
import proofs.«125142_j44263932952755_1_alg».proof.Defs
import proofs.«125142_j44263932952755_1_alg».proof.Proof.Gen.Kernel
import proofs.«125142_j44263932952755_1_alg».proof.Proof.Gen.Kernel.Skeleton
import proofs.«125142_j44263932952755_1_alg».proof.Proof.Gen.Kernel.Launch
import proofs.«125142_j44263932952755_1_alg».proof.Proof.Gen.Kernel.Points
import proofs.«125142_j44263932952755_1_alg».proof.Proof.Gen.Kernel.Frame
import proofs.«125142_j44263932952755_1_alg».proof.Proof.Gen.KernelIdeal
import proofs.«125142_j44263932952755_1_alg».proof.Proof.Gen.KernelIdeal.Skeleton
import proofs.«125142_j44263932952755_1_alg».proof.Proof.Gen.KernelIdeal.Launch
import proofs.«125142_j44263932952755_1_alg».proof.Proof.Gen.KernelIdeal.Points
import proofs.«125142_j44263932952755_1_alg».proof.Proof.Gen.KernelIdeal.Frame
import proofs.«125142_j44263932952755_1_alg».proof.Proof.Gen.ReferenceIdeal
import proofs.«125142_j44263932952755_1_alg».proof.Proof.Gen.ReferenceIdeal.Run
import proofs.«125142_j44263932952755_1_alg».proof.Proof.Gen.ReferenceIdeal.Read
import proofs.«125142_j44263932952755_1_alg».proof.Proof.Gen.Pre_finite_inputs
import proofs.«125142_j44263932952755_1_alg».proof.Proof.KernelValue
import proofs.«125142_j44263932952755_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the head values of rows 0 to 262142 over arguments that agree: the kernel by its blocks
    tiling the column, the reference by its batched contraction read at an index; the gathered per-node tables are one
    term on both sides. -/
theorem algebraic : Cert.algebraic_KernelIdeal_ReferenceIdeal := by
  intro m ρ m' ρ' _ hagree
  refine ⟨fun c => Cert.KernelIdeal.HeadValue.result m c, Cert.KernelIdeal.HeadValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.HeadValue.result_eq
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))).trans ?_
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
